-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S64x128 .f32) (main_arg3 : FVec F S64 .f32) (main_arg4 : FVec F S64x128 .f32) (main_arg5 : FVec F S32x64 .f32) (main_arg6 : FVec F S32 .f32) (main_arg7 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S128x64 : Shape := ⟨2, ![128, 64]⟩
abbrev S640000x64 : Shape := ⟨2, ![640000, 64]⟩
abbrev S1x32 : Shape := ⟨2, ![1, 32]⟩
abbrev S100000x32 : Shape := ⟨2, ![100000, 32]⟩
abbrev S5000x32 : Shape := ⟨2, ![5000, 32]⟩
abbrev S64x32 : Shape := ⟨2, ![64, 32]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S100000x128, .f32⟩
  | .hbm, ⟨33, _⟩ => ⟨S640000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x64, .f32⟩
  | .hbm, ⟨48, _⟩ => ⟨S_, .f32⟩
  | .hbm, ⟨49, _⟩ => ⟨S100000x64, .f32⟩
  | .hbm, ⟨50, _⟩ => ⟨S640000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x32, .f32⟩
  | .hbm, ⟨55, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S64x128, .f32⟩
  | .local _ .vmem, ⟨5, _⟩ => ⟨S1x64, .f32⟩
  | .local _ .vmem, ⟨6, _⟩ => ⟨S64x128, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S32x64, .f32⟩
  | .local _ .vmem, ⟨14, _⟩ => ⟨S1x32, .f32⟩
  | .local _ .vmem, ⟨15, _⟩ => ⟨S32x64, .f32⟩
  | .local _ .vmem, ⟨16, _⟩ => ⟨S5000x32, .f32⟩
  | .local _ .vmem, ⟨17, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S5000x64_S5000x64 : S5000x64.ShapeCasts S5000x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x64_S5000x64_1_0_0_1_n_n_wf : DotDims.WF S5000x128 S128x64 S5000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S640000x64 : Shape := ⟨2, ![640000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x64, .f32⟩
  | .hbm, ⟨57, _⟩ => ⟨S_, .f32⟩
  | .hbm, ⟨58, _⟩ => ⟨S100000x64, .f32⟩
  | .hbm, ⟨59, _⟩ => ⟨S640000x1, .i32⟩
  | .hbm, ⟨60, _⟩ => ⟨S100000x64, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x64_S100000x64_1_0_0_1_n_n_wf : DotDims.WF S100000x128 S128x64 S100000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S100000x64_S64x32_S100000x32_1_0_0_1_n_n_wf : DotDims.WF S100000x64 S64x32 S100000x32 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.LibSageLayer.lean ====
/-
  One neighbour-mean graph layer's dense stage, read at an entry over the extended reals.

  The stage takes two [R, K] arrays — the aggregated neighbour features  A  and the nodes' own features  X  —, two
  [C, K] weight matrices  Wl , Wr  stored output-major, and a bias of C numbers, and returns the [R, C] array

      lin(r, c) = ( Σ_k A(r, k) · Wl(c, k)  +  b(c) )  +  Σ_k X(r, k) · Wr(c, k) ,

  the two sums over the K input features and the additions grouped exactly so (`lin`). A weight matrix enters a product
  transposed: the [K, C] array whose entry (k, c) is W(c, k) (`transpose_swap_apply`), and a plain product of an [R, K]
  array with that [K, C] array is at (r, c) the sum over k of  lhs(r, k) · W(c, k)  — for the matrix unit's product into
  a zero accumulator and for the host's general product alike (the two product lemmas this file imports). The bias is
  added to every row: a vector program repeats a [1, C] row over the rows, a host program lays the C numbers out as a
  [1, C] row and that row over the rows. So both spellings of the stage are `lin` at every entry
  (`kernel_lin_apply` for a tile of T rows with the operands narrowed to bf16, which is the identity on the extended
  reals; `host_lin_apply` for the whole array), whatever R, T, K and C are: the stage acts on each row by itself.
-/
import Idealize.ShloMosaic.PureOps.Ideal.Laws
import Idealize.ShloMosaic.Lib.ValueIdx
import Idealize.ShloMosaic.Lib.ValueLayout
import Idealize.ShloMosaic.Lib.Pipeline.Value
import proofs.«112888_j51496657879701_1_alg».proof.Proof.LibDense
import proofs.«112888_j51496657879701_1_alg».proof.Proof.LibBiasRow

noncomputable section

open scoped BigOperators

namespace Cert.SageLayer

open Idealize.ShloMosaic Idealize.ShloMosaic.ValueIdx

/-- The dense stage at the entry (r, c):  (Σ_k A(r,k)·Wl(c,k) + b(c)) + Σ_k X(r,k)·Wr(c,k) . -/
def lin {R K C : ℕ} (A X : (⟨2, ![R, K]⟩ : Shape).Idx → EReal) (Wl Wr : (⟨2, ![C, K]⟩ : Shape).Idx → EReal)
    (b : Fin C → EReal) (r : Fin R) (c : Fin C) : EReal :=
  ((∑ k : Fin K, A (ix2 r k) * Wl (ix2 c k)) + b c) + ∑ k : Fin K, X (ix2 r k) * Wr (ix2 c k)

/-- A [C, K] matrix transposed to [K, C] reads, at (k, c), the matrix at (c, k). -/
theorem transpose_swap_apply {K C : ℕ} {α : Type}
    (htr : (⟨2, ![C, K]⟩ : Shape).Transposes [1, 0] ⟨2, ![K, C]⟩)
    (W : (⟨2, ![C, K]⟩ : Shape).Idx → α) (k : Fin K) (c : Fin C) :
    transpose ⟨2, ![K, C]⟩ [1, 0] W htr (ix2 k c) = W (ix2 c k) :=
  transpose_apply [1, 0] W htr (ix2 k c) (ix2 c k) fun b =>
    match b with
    | ⟨0, _⟩ => rfl
    | ⟨1, _⟩ => rfl

/-- The stage as a vector program spells it on a tile of T rows — every operand narrowed to bf16, each weight matrix
    transposed, the two products into zeros, the bias row repeated over the tile's rows — at (p, q). -/
theorem kernel_lin_apply {T K C : ℕ} (d : DotDims ⟨2, ![T, K]⟩ ⟨2, ![K, C]⟩ ⟨2, ![T, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (htr : (⟨2, ![C, K]⟩ : Shape).Transposes [1, 0] ⟨2, ![K, C]⟩)
    (hbc : (⟨2, ![1, C]⟩ : Shape).Broadcasts ⟨2, ![T, C]⟩)
    (a x : FVec Ideal ⟨2, ![T, K]⟩ .f32) (wl wr : FVec Ideal ⟨2, ![C, K]⟩ .f32) (brow : FVec Ideal ⟨2, ![1, C]⟩ .f32)
    (p : Fin T) (q : Fin C) :
    addf (addf (matmul d none (truncf .bf16 a hlt) (transpose ⟨2, ![K, C]⟩ [1, 0] (truncf .bf16 wl hlt) htr)
                  (constant ⟨2, ![T, C]⟩ .f32 0x00000000#32))
               (broadcastTo ⟨2, ![T, C]⟩ brow hbc))
         (matmul d none (truncf .bf16 x hlt) (transpose ⟨2, ![K, C]⟩ [1, 0] (truncf .bf16 wr hlt) htr)
                  (constant ⟨2, ![T, C]⟩ .f32 0x00000000#32)) (ix2 p q)
      = lin a x wl wr (fun c => brow (ix2 (0 : Fin 1) c)) p q := by
  -- each product at (p, q) is the sum over k of the left operand's row against the transposed matrix's column
  rw [addf_apply, addf_apply, Cert.Dense.matmul_zero_plain_apply d h1 h2 h3 h4 h5 h6,
    Cert.Dense.matmul_zero_plain_apply d h1 h2 h3 h4 h5 h6, Cert.BiasRow.stretch_row_apply hbc brow p q]
  -- the transposed matrix at (k, q) is the matrix at (q, k); narrowing to bf16 is the identity
  simp only [transpose_swap_apply htr, truncf_apply]
  rfl

/-- The stage as a host program spells it on the whole arrays — each weight matrix transposed, the two general
    products, the bias laid out as a [1, C] row and then over the rows — at (r, c). -/
theorem host_lin_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (htr : (⟨2, ![C, K]⟩ : Shape).Transposes [1, 0] ⟨2, ![K, C]⟩)
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A X : FVec Ideal ⟨2, ![R, K]⟩ .f32) (Wl Wr : FVec Ideal ⟨2, ![C, K]⟩ .f32) (b : FVec Ideal ⟨1, ![C]⟩ .f32)
    (r : Fin R) (c : Fin C) :
    addf (addf (Host.dotGeneral d none A (transpose ⟨2, ![K, C]⟩ [1, 0] Wl htr))
               (broadcastInDim ⟨2, ![R, C]⟩ ![0, 1] hb2 (broadcastInDim ⟨2, ![1, C]⟩ ![1] hb1 b)))
         (Host.dotGeneral d none X (transpose ⟨2, ![K, C]⟩ [1, 0] Wr htr)) (ix2 r c)
      = lin A X Wl Wr (fun c => b (ix1 c)) r c := by
  -- each general product at (r, c) is the same sum over k; the bias entry is the row's entry c
  rw [addf_apply, addf_apply, Cert.Dense.dotGeneral_plain_apply d h1 h2 h3 h4 h5 h6,
    Cert.Dense.dotGeneral_plain_apply d h1 h2 h3 h4 h5 h6, Cert.BiasRow.layout_layout_apply hb1 hb2 b r c]
  simp only [transpose_swap_apply htr]
  rfl

/-- The stage as a whole [R, C] array. -/
def linArr {R K C : ℕ} (A X : (⟨2, ![R, K]⟩ : Shape).Idx → EReal) (Wl Wr : (⟨2, ![C, K]⟩ : Shape).Idx → EReal)
    (b : Fin C → EReal) : (⟨2, ![R, C]⟩ : Shape).Idx → EReal :=
  fun i => lin A X Wl Wr b (i 0) (i 1)

/-- The rectifier on a whole array: the maximum with 0 at every entry. -/
def reluArr {s : Shape} (v : s.Idx → EReal) : s.Idx → EReal := fun i => max (v i) 0

/-- The host's spelling of the stage is the stage, as whole arrays. -/
theorem host_lin_eq {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (htr : (⟨2, ![C, K]⟩ : Shape).Transposes [1, 0] ⟨2, ![K, C]⟩)
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A X : FVec Ideal ⟨2, ![R, K]⟩ .f32) (Wl Wr : FVec Ideal ⟨2, ![C, K]⟩ .f32) (b : FVec Ideal ⟨1, ![C]⟩ .f32) :
    addf (addf (Host.dotGeneral d none A (transpose ⟨2, ![K, C]⟩ [1, 0] Wl htr))
               (broadcastInDim ⟨2, ![R, C]⟩ ![0, 1] hb2 (broadcastInDim ⟨2, ![1, C]⟩ ![1] hb1 b)))
         (Host.dotGeneral d none X (transpose ⟨2, ![K, C]⟩ [1, 0] Wr htr))
      = linArr A X Wl Wr (fun c => b (ix1 c)) := by
  funext i
  obtain ⟨r, c, rfl⟩ : ∃ (r : Fin R) (c : Fin C), i = ix2 r c := ⟨i 0, i 1, eq_ix2 i⟩
  exact host_lin_apply d h1 h2 h3 h4 h5 h6 htr hb1 hb2 A X Wl Wr b r c

/-- The host's rectifier is the rectifier, as whole arrays. -/
theorem host_relu_eq {s : Shape} (hb0 : (⟨0, ![]⟩ : Shape).BroadcastsInDim s (![] : Fin 0 → Fin s.rank))
    (v : FVec Ideal s .f32) :
    maximumf v (broadcastInDim s ![] hb0 (constant (F := Ideal) ⟨0, ![]⟩ .f32 0x00000000#32)) = reluArr v :=
  funext fun i => Cert.Dense.host_relu_apply hb0 v i

/-- A tile of T rows of the stage is the tile's rows of the whole stage: if the tile's two row operands are the
    rows  base … base + T − 1  of the whole arrays, the stage of the tile at (p, q) is the stage of the whole arrays at
    (base + p, q). -/
theorem tile_lin_eq {R T K C : ℕ} (A X : (⟨2, ![R, K]⟩ : Shape).Idx → EReal)
    (Wl Wr : (⟨2, ![C, K]⟩ : Shape).Idx → EReal) (b : Fin C → EReal)
    (a x : (⟨2, ![T, K]⟩ : Shape).Idx → EReal) (base : ℕ)
    (ha : ∀ (z : (⟨2, ![T, K]⟩ : Shape).Idx) (i' : (⟨2, ![R, K]⟩ : Shape).Idx),
      (i' 0).val = base + (z 0).val → (i' 1).val = (z 1).val → a z = A i')
    (hx : ∀ (z : (⟨2, ![T, K]⟩ : Shape).Idx) (i' : (⟨2, ![R, K]⟩ : Shape).Idx),
      (i' 0).val = base + (z 0).val → (i' 1).val = (z 1).val → x z = X i')
    (p : Fin T) (q : Fin C) (r : Fin R) (hr : r.val = base + p.val) :
    lin a x Wl Wr b p q = lin A X Wl Wr b r q := by
  unfold lin
  have ea : ∀ k : Fin K, a (ix2 p k) = A (ix2 r k) := fun k => ha (ix2 p k) (ix2 r k) hr rfl
  have ex : ∀ k : Fin K, x (ix2 p k) = X (ix2 r k) := fun k => hx (ix2 p k) (ix2 r k) hr rfl
  simp only [ea, ex]

end Cert.SageLayer

end
-- ==== Proof.KernelTile.lean ====
/-
  What one tile of each dense stage computes, entry by entry, over the extended reals.

  The first stage's body takes a tile of 5000 rows of the aggregated features and of the nodes' own features (128
  numbers a row), the two 64 × 128 weight matrices and the bias as a 1 × 64 row, and stores
  max( (Σ_k a(p,k)·wl(q,k) + b(q)) + Σ_k x(p,k)·wr(q,k), 0 )  at the tile's entry (p, q). The second stage's body does the
  same on rows of 64 numbers with 32 × 64 matrices and a 1 × 32 bias row, without the maximum. Both follow from the
  general dense stage at an entry: the casts of a tile to its own shape are the identity, narrowing to bf16 is the
  identity on the extended reals, and the zero word the maximum is taken with is the number 0.
-/
import proofs.«112888_j51496657879701_1_alg».proof.Proof.Gen.KernelIdeal.Skeleton
import proofs.«112888_j51496657879701_1_alg».proof.Proof.LibSageLayer

noncomputable section

open scoped BigOperators

namespace Cert.KernelIdeal.Tile

open Cert.KernelIdeal Cert.KernelIdeal.Gen Idealize.ShloMosaic Idealize.ShloMosaic.ValueIdx

/-- The first stage's tile at (p, q): the dense stage of the tile's rows, then the maximum with 0. -/
theorem stage1_apply (v0 v3 : Vec Ideal S5000x128 .f32) (v5 v7 : Vec Ideal S64x128 .f32) (v11 : Vec Ideal S1x64 .f32)
    (p : Fin 5000) (q : Fin 64) :
    k0_pay1 (F := Ideal) v0 v3 v5 v7 v11 (ix2 p q)
      = max (Cert.SageLayer.lin v0 v3 v5 v7 (fun c => v11 (ix2 (0 : Fin 1) c)) p q) 0 := by
  unfold k0_pay1
  -- the maximum with the splat zero word, then the dense stage at (p, q)
  refine (Cert.Dense.kernel_relu_apply _ _).trans ?_
  refine congrArg (fun z => max z 0) ?_
  refine (Cert.SageLayer.kernel_lin_apply dot_S5000x128_S128x64_S5000x64_1_0_0_1_n_n rfl rfl rfl rfl rfl rfl
    bitsLt_bf16_f32 transposes_S64x128_p1_0_S128x64 broadcasts_S1x64_S5000x64
    (shapeCast S5000x128 v0 shapeCasts_S5000x128_S5000x128) v3 v5 v7 (shapeCast S1x64 v11 shapeCasts_S1x64_S1x64) p q).trans ?_
  -- a cast to the same shape is the identity
  rw [shapeCast_self, shapeCast_self]

/-- The second stage's tile at (p, q): the dense stage of the tile's rows. -/
theorem stage2_apply (v0 v3 : Vec Ideal S5000x64 .f32) (v6 v8 : Vec Ideal S32x64 .f32) (v12 : Vec Ideal S1x32 .f32)
    (p : Fin 5000) (q : Fin 32) :
    k1_pay1 (F := Ideal) v0 v3 v6 v8 v12 (ix2 p q)
      = Cert.SageLayer.lin v0 v3 v6 v8 (fun c => v12 (ix2 (0 : Fin 1) c)) p q := by
  unfold k1_pay1
  refine (Cert.SageLayer.kernel_lin_apply dot_S5000x64_S64x32_S5000x32_1_0_0_1_n_n rfl rfl rfl rfl rfl rfl
    bitsLt_bf16_f32 transposes_S32x64_p1_0_S64x32 broadcasts_S1x32_S5000x32
    (shapeCast S5000x64 v0 shapeCasts_S5000x64_S5000x64) (shapeCast S5000x64 v3 shapeCasts_S5000x64_S5000x64) v6 v8
    (shapeCast S1x32 v12 shapeCasts_S1x32_S1x32) p q).trans ?_
  rw [shapeCast_self, shapeCast_self, shapeCast_self]

end Cert.KernelIdeal.Tile

end
-- ==== Proof.KernelStage1.lean ====
/-
  The first dense stage's result array: what the twenty grid points write back, put together.

  Grid point t of the first pallas_call reads rows 5000·t … 5000·t + 4999 of the aggregated features and of the nodes'
  own features, the two whole weight matrices and the whole bias row, and writes back rows 5000·t … 5000·t + 4999 of the
  result. What it writes at the tile's entry (p, q) is the rectified dense stage of the tile's rows, which is the rectified
  dense stage of the WHOLE arrays at (5000·t + p, q): a row of the stage depends on that row of the two row operands only.
  The twenty blocks tile the 100000 rows (row r lies in block r / 5000), so after the region the result array is the
  rectified dense stage of the arrays the region found, at every entry.
-/
import proofs.«112888_j51496657879701_1_alg».proof.Proof.Gen.KernelIdeal.Frame
import proofs.«112888_j51496657879701_1_alg».proof.Proof.KernelTile
import Idealize.ShloMosaic.Lib.Pipeline.Value

set_option maxRecDepth 16384

noncomputable section

open scoped BigOperators

namespace Cert.KernelIdeal.Stage1

open Cert.KernelIdeal Cert.KernelIdeal.Gen Idealize.ShloMosaic Idealize.ShloMosaic.TcCoe Idealize.ShloMosaic.ValueIdx
open Idealize.ShloMosaic.Pipeline (Dat)
open Cert.SageLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row operands and the result move together, one block of 5000 rows a
    point, all at column block 0; the weights and the bias stay at block (0, 0). -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The aggregated features' block at point t is rows 5000·t … of the array the region found. -/
theorem blk_agg (c : Dev nD) (t : Fin cfg0.N) (z : S5000x128.Idx) (i' : S100000x128.Idx)
    (h0 : (i' 0).val = 5000 * t.val + (z 0).val) (h1 : (i' 1).val = (z 1).val) :
    (iblk0 V c 0 t : Vec Ideal S5000x128 .f32) z = (V c main_v22 : S100000x128.Idx → EReal) i' := by
  obtain ⟨-, -, e0, e1, -⟩ := idx_facts t
  unfold iblk0
  rw [View.read_apply]
  show V c main_v22 _ = V c main_v22 _
  refine congrArg (V c main_v22) (funext fun a => Fin.ext ?_)
  match a with
  | ⟨0, _⟩ => show win0_0.index t 0 * 5000 + 1 * (z 0).val = (i' 0).val; rw [e0, h0]; omega
  | ⟨1, _⟩ => show win0_0.index t 1 * 128 + 1 * (z 1).val = (i' 1).val; rw [e1, h1]; omega

/-- The nodes' own features' block at point t is rows 5000·t … of the first argument. -/
theorem blk_own (c : Dev nD) (t : Fin cfg0.N) (z : S5000x128.Idx) (i' : S100000x128.Idx)
    (h0 : (i' 0).val = 5000 * t.val + (z 0).val) (h1 : (i' 1).val = (z 1).val) :
    (iblk0 V c 1 t : Vec Ideal S5000x128 .f32) z = (V c main_arg0 : S100000x128.Idx → EReal) i' := by
  obtain ⟨-, -, -, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t 0 * 5000 + 1 * (z 0).val = (i' 0).val; rw [e0, h0]; omega
  | ⟨1, _⟩ => show win0_1.index t 1 * 128 + 1 * (z 1).val = (i' 1).val; rw [e1, h1]; omega

/-- The neighbour weights' block at every point is the whole matrix. -/
theorem blk_wl (c : Dev nD) (t : Fin cfg0.N) :
    (iblk0 V c 2 t : Vec Ideal S64x128 .f32) = (V c main_arg2 : S64x128.Idx → EReal) := by
  obtain ⟨-, -, -, -, -, -, e0, e1, -⟩ := idx_facts t
  funext z
  unfold iblk0
  rw [View.read_apply]
  show V c main_arg2 _ = V c main_arg2 _
  refine congrArg (V c main_arg2) (funext fun a => Fin.ext ?_)
  match a with
  | ⟨0, _⟩ => show win0_2.index t 0 * 64 + 1 * (z 0).val = (z 0).val; rw [e0]; omega
  | ⟨1, _⟩ => show win0_2.index t 1 * 128 + 1 * (z 1).val = (z 1).val; rw [e1]; omega

/-- The bias row's block at every point is the whole row. -/
theorem blk_b (c : Dev nD) (t : Fin cfg0.N) :
    (iblk0 V c 3 t : Vec Ideal S1x64 .f32) = (V c main_v23 : S1x64.Idx → EReal) := by
  obtain ⟨-, -, -, -, -, -, -, -, e0, e1, -⟩ := idx_facts t
  funext z
  unfold iblk0
  rw [View.read_apply]
  show V c main_v23 _ = V c main_v23 _
  refine congrArg (V c main_v23) (funext fun a => Fin.ext ?_)
  match a with
  | ⟨0, _⟩ => show win0_3.index t 0 * 1 + 1 * (z 0).val = (z 0).val; rw [e0]; omega
  | ⟨1, _⟩ => show win0_3.index t 1 * 64 + 1 * (z 1).val = (z 1).val; rw [e1]; omega

/-- The own-feature weights' block at every point is the whole matrix. -/
theorem blk_wr (c : Dev nD) (t : Fin cfg0.N) :
    (iblk0 V c 4 t : Vec Ideal S64x128 .f32) = (V c main_arg4 : S64x128.Idx → EReal) := by
  obtain ⟨-, -, -, -, -, -, -, -, -, -, e0, e1⟩ := idx_facts t
  funext z
  unfold iblk0
  rw [View.read_apply]
  show V c main_arg4 _ = V c main_arg4 _
  refine congrArg (V c main_arg4) (funext fun a => Fin.ext ?_)
  match a with
  | ⟨0, _⟩ => show win0_4.index t 0 * 64 + 1 * (z 0).val = (z 0).val; rw [e0]; omega
  | ⟨1, _⟩ => show win0_4.index t 1 * 128 + 1 * (z 1).val = (z 1).val; rw [e1]; omega

/-- The first stage's result as one function of the arrays the region finds: the rectified dense stage. -/
def result (c : Dev nD) : S100000x64.Idx → EReal :=
  reluArr (linArr (V c main_v22 : S100000x128.Idx → EReal) (V c main_arg0 : S100000x128.Idx → EReal)
    (V c main_arg2 : S64x128.Idx → EReal) (V c main_arg4 : S64x128.Idx → EReal)
    (fun q => (V c main_v23 : S1x64.Idx → EReal) (ix2 (0 : Fin 1) q)))

/-- The tile a point computes from its blocks is the result's rows 5000·t …: stated over the literal tile types. -/
theorem tile_eq (c : Dev nD) (t : Fin cfg0.N) (a x : Vec Ideal S5000x128 .f32) (wl wr : Vec Ideal S64x128 .f32)
    (b : Vec Ideal S1x64 .f32)
    (ha : ∀ (z : S5000x128.Idx) (i' : S100000x128.Idx), (i' 0).val = 5000 * t.val + (z 0).val → (i' 1).val = (z 1).val →
      a z = (V c main_v22 : S100000x128.Idx → EReal) i')
    (hx : ∀ (z : S5000x128.Idx) (i' : S100000x128.Idx), (i' 0).val = 5000 * t.val + (z 0).val → (i' 1).val = (z 1).val →
      x z = (V c main_arg0 : S100000x128.Idx → EReal) i')
    (hwl : wl = (V c main_arg2 : S64x128.Idx → EReal)) (hwr : wr = (V c main_arg4 : S64x128.Idx → EReal))
    (hb : b = (V c main_v23 : S1x64.Idx → EReal))
    (y : S5000x64.Idx) (i : S100000x64.Idx) (hi0 : (i 0).val = 5000 * t.val + (y 0).val) (hi1 : (i 1).val = (y 1).val) :
    k0_pay1 (F := Ideal) a x wl wr b y = result V c i := by
  subst hwl hwr hb
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext hi1
  rw [Cert.KernelIdeal.Tile.stage1_apply]
  show max _ 0 = max (lin _ _ _ _ _ r q') 0
  rw [tile_lin_eq _ _ _ _ _ a x (5000 * t.val) ha hx p q' r hi0]

/-- What point t writes back is block t of the result. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S64x128) hz, View.ld_unit_zero (S := S1x64) hz]
  obtain ⟨e0, e1, -⟩ := idx_facts t
  funext j
  show k0_pay1 (F := Ideal) (iblk0 V c 0 t) (iblk0 V c 1 t) (iblk0 V c 2 t) (iblk0 V c 4 t) (iblk0 V c 3 t) j
    = result V c (((cfg0.win 5).blk t).view.emb j)
  refine tile_eq V c t (iblk0 V c 0 t) (iblk0 V c 1 t) (iblk0 V c 2 t) (iblk0 V c 4 t) (iblk0 V c 3 t)
    (blk_agg V c t) (blk_own V c t) (blk_wl V c t) (blk_wr V c t) (blk_b V c t) j (((cfg0.win 5).blk t).view.emb j) ?_ ?_
  · show win0_5.index t 0 * 5000 + 1 * (j 0).val = 5000 * t.val + (j 0).val
    rw [e0]; omega
  · show win0_5.index t 1 * 64 + 1 * (j 1).val = (j 1).val
    rw [e1]; omega

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- After the region the result array holds the rectified dense stage of the arrays the region found: row r is written
    by point r / 5000. -/
theorem final (c : Dev nD) : (dat0 V c).arrAt 5 cfg0.N = result V c :=
  (dat0 V c).arrAt_eq_of_cover 5 (result V c) (fun t _ => flushed_eq V c t) fun i => by
    have hi0 : (i 0).val < 100000 := (i 0).isLt
    have hi1 : (i 1).val < 64 := (i 1).isLt
    have hN : cfg0.N = 20 := N_0
    obtain ⟨t, ht⟩ : ∃ t : Fin cfg0.N, t.val = (i 0).val / 5000 := ⟨⟨(i 0).val / 5000, by rw [hN]; omega⟩, rfl⟩
    obtain ⟨e0, e1, -⟩ := idx_facts t
    refine ⟨t, flush0_5 t, ?_⟩
    rw [mem_blk]
    intro a
    match a with
    | ⟨0, _⟩ =>
      show win0_5.index t 0 * 5000 ≤ (i 0).val ∧ (i 0).val < win0_5.index t 0 * 5000 + 5000
      rw [e0, ht]; omega
    | ⟨1, _⟩ =>
      show win0_5.index t 1 * 64 ≤ (i 1).val ∧ (i 1).val < win0_5.index t 1 * 64 + 64
      rw [e1]; omega

end Cert.KernelIdeal.Stage1

end
-- ==== Proof.KernelStage2.lean ====
/-
  The second dense stage's result array: what the twenty grid points write back, put together.

  Grid point t of the second pallas_call reads rows 5000·t … 5000·t + 4999 of the aggregated hidden features and of the
  hidden features themselves (64 numbers a row), the two whole 32 × 64 weight matrices and the whole 1 × 32 bias row, and
  writes back rows 5000·t … 5000·t + 4999 of the result: at the tile's entry (p, q) the dense stage of the tile's rows,
  which is the dense stage of the WHOLE arrays at (5000·t + p, q). The twenty blocks tile the 100000 rows (row r lies in
  block r / 5000), so after the region the result array is the dense stage of the arrays the region found, at every entry.
-/
import proofs.«112888_j51496657879701_1_alg».proof.Proof.Gen.KernelIdeal.Frame
import proofs.«112888_j51496657879701_1_alg».proof.Proof.KernelTile
import Idealize.ShloMosaic.Lib.Pipeline.Value

set_option maxRecDepth 16384

noncomputable section

open scoped BigOperators

namespace Cert.KernelIdeal.Stage2

open Cert.KernelIdeal Cert.KernelIdeal.Gen Idealize.ShloMosaic Idealize.ShloMosaic.TcCoe Idealize.ShloMosaic.ValueIdx
open Idealize.ShloMosaic.Pipeline (Dat)
open Cert.SageLayer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row operands and the result move together, one block of 5000 rows a
    point, all at column block 0; the weights and the bias stay at block (0, 0). -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The aggregated hidden features' block at point t is rows 5000·t … of the array the region found. -/
theorem blk_agg (c : Dev nD) (t : Fin cfg1.N) (z : S5000x64.Idx) (i' : S100000x64.Idx)
    (h0 : (i' 0).val = 5000 * t.val + (z 0).val) (h1 : (i' 1).val = (z 1).val) :
    (iblk1 V c 0 t : Vec Ideal S5000x64 .f32) z = (V c main_v36 : S100000x64.Idx → EReal) i' := by
  obtain ⟨-, -, e0, e1, -⟩ := idx_facts t
  unfold iblk1
  rw [View.read_apply]
  show V c main_v36 _ = V c main_v36 _
  refine congrArg (V c main_v36) (funext fun a => Fin.ext ?_)
  match a with
  | ⟨0, _⟩ => show win1_0.index t 0 * 5000 + 1 * (z 0).val = (i' 0).val; rw [e0, h0]; omega
  | ⟨1, _⟩ => show win1_0.index t 1 * 64 + 1 * (z 1).val = (i' 1).val; rw [e1, h1]; omega

/-- The hidden features' block at point t is rows 5000·t … of the first stage's result. -/
theorem blk_own (c : Dev nD) (t : Fin cfg1.N) (z : S5000x64.Idx) (i' : S100000x64.Idx)
    (h0 : (i' 0).val = 5000 * t.val + (z 0).val) (h1 : (i' 1).val = (z 1).val) :
    (iblk1 V c 1 t : Vec Ideal S5000x64 .f32) z = (V c main_v24 : S100000x64.Idx → EReal) i' := by
  obtain ⟨-, -, -, -, e0, e1, -⟩ := idx_facts t
  unfold iblk1
  rw [View.read_apply]
  show V c main_v24 _ = V c main_v24 _
  refine congrArg (V c main_v24) (funext fun a => Fin.ext ?_)
  match a with
  | ⟨0, _⟩ => show win1_1.index t 0 * 5000 + 1 * (z 0).val = (i' 0).val; rw [e0, h0]; omega
  | ⟨1, _⟩ => show win1_1.index t 1 * 64 + 1 * (z 1).val = (i' 1).val; rw [e1, h1]; omega

/-- The neighbour weights' block at every point is the whole matrix. -/
theorem blk_wl (c : Dev nD) (t : Fin cfg1.N) :
    (iblk1 V c 2 t : Vec Ideal S32x64 .f32) = (V c main_arg5 : S32x64.Idx → EReal) := by
  obtain ⟨-, -, -, -, -, -, e0, e1, -⟩ := idx_facts t
  funext z
  unfold iblk1
  rw [View.read_apply]
  show V c main_arg5 _ = V c main_arg5 _
  refine congrArg (V c main_arg5) (funext fun a => Fin.ext ?_)
  match a with
  | ⟨0, _⟩ => show win1_2.index t 0 * 32 + 1 * (z 0).val = (z 0).val; rw [e0]; omega
  | ⟨1, _⟩ => show win1_2.index t 1 * 64 + 1 * (z 1).val = (z 1).val; rw [e1]; omega

/-- The bias row's block at every point is the whole row. -/
theorem blk_b (c : Dev nD) (t : Fin cfg1.N) :
    (iblk1 V c 3 t : Vec Ideal S1x32 .f32) = (V c main_v37 : S1x32.Idx → EReal) := by
  obtain ⟨-, -, -, -, -, -, -, -, e0, e1, -⟩ := idx_facts t
  funext z
  unfold iblk1
  rw [View.read_apply]
  show V c main_v37 _ = V c main_v37 _
  refine congrArg (V c main_v37) (funext fun a => Fin.ext ?_)
  match a with
  | ⟨0, _⟩ => show win1_3.index t 0 * 1 + 1 * (z 0).val = (z 0).val; rw [e0]; omega
  | ⟨1, _⟩ => show win1_3.index t 1 * 32 + 1 * (z 1).val = (z 1).val; rw [e1]; omega

/-- The own-feature weights' block at every point is the whole matrix. -/
theorem blk_wr (c : Dev nD) (t : Fin cfg1.N) :
    (iblk1 V c 4 t : Vec Ideal S32x64 .f32) = (V c main_arg7 : S32x64.Idx → EReal) := by
  obtain ⟨-, -, -, -, -, -, -, -, -, -, e0, e1⟩ := idx_facts t
  funext z
  unfold iblk1
  rw [View.read_apply]
  show V c main_arg7 _ = V c main_arg7 _
  refine congrArg (V c main_arg7) (funext fun a => Fin.ext ?_)
  match a with
  | ⟨0, _⟩ => show win1_4.index t 0 * 32 + 1 * (z 0).val = (z 0).val; rw [e0]; omega
  | ⟨1, _⟩ => show win1_4.index t 1 * 64 + 1 * (z 1).val = (z 1).val; rw [e1]; omega

/-- The second stage's result as one function of the arrays the region finds: the dense stage. -/
def result (c : Dev nD) : S100000x32.Idx → EReal :=
  linArr (V c main_v36 : S100000x64.Idx → EReal) (V c main_v24 : S100000x64.Idx → EReal)
    (V c main_arg5 : S32x64.Idx → EReal) (V c main_arg7 : S32x64.Idx → EReal)
    (fun q => (V c main_v37 : S1x32.Idx → EReal) (ix2 (0 : Fin 1) q))

/-- The tile a point computes from its blocks is the result's rows 5000·t …: stated over the literal tile types. -/
theorem tile_eq (c : Dev nD) (t : Fin cfg1.N) (a x : Vec Ideal S5000x64 .f32) (wl wr : Vec Ideal S32x64 .f32)
    (b : Vec Ideal S1x32 .f32)
    (ha : ∀ (z : S5000x64.Idx) (i' : S100000x64.Idx), (i' 0).val = 5000 * t.val + (z 0).val → (i' 1).val = (z 1).val →
      a z = (V c main_v36 : S100000x64.Idx → EReal) i')
    (hx : ∀ (z : S5000x64.Idx) (i' : S100000x64.Idx), (i' 0).val = 5000 * t.val + (z 0).val → (i' 1).val = (z 1).val →
      x z = (V c main_v24 : S100000x64.Idx → EReal) i')
    (hwl : wl = (V c main_arg5 : S32x64.Idx → EReal)) (hwr : wr = (V c main_arg7 : S32x64.Idx → EReal))
    (hb : b = (V c main_v37 : S1x32.Idx → EReal))
    (y : S5000x32.Idx) (i : S100000x32.Idx) (hi0 : (i 0).val = 5000 * t.val + (y 0).val) (hi1 : (i 1).val = (y 1).val) :
    k1_pay1 (F := Ideal) a x wl wr b y = result V c i := by
  subst hwl hwr hb
  obtain ⟨p, q, rfl⟩ : ∃ (p : Fin 5000) (q : Fin 32), y = ix2 p q := ⟨y 0, y 1, eq_ix2 y⟩
  obtain ⟨r, q', rfl⟩ : ∃ (r : Fin 100000) (q' : Fin 32), i = ix2 r q' := ⟨i 0, i 1, eq_ix2 i⟩
  obtain rfl : q' = q := Fin.ext hi1
  rw [Cert.KernelIdeal.Tile.stage2_apply, tile_lin_eq _ _ _ _ _ a x (5000 * t.val) ha hx p q' r hi0]
  rfl

/-- What point t writes back is block t of the result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S32x64) hz, View.ld_unit_zero (S := S1x32) hz]
  obtain ⟨e0, e1, -⟩ := idx_facts t
  funext j
  show k1_pay1 (F := Ideal) (iblk1 V c 0 t) (iblk1 V c 1 t) (iblk1 V c 2 t) (iblk1 V c 4 t) (iblk1 V c 3 t) j
    = result V c (((cfg1.win 5).blk t).view.emb j)
  refine tile_eq V c t (iblk1 V c 0 t) (iblk1 V c 1 t) (iblk1 V c 2 t) (iblk1 V c 4 t) (iblk1 V c 3 t)
    (blk_agg V c t) (blk_own V c t) (blk_wl V c t) (blk_wr V c t) (blk_b V c t) j (((cfg1.win 5).blk t).view.emb j) ?_ ?_
  · show win1_5.index t 0 * 5000 + 1 * (j 0).val = 5000 * t.val + (j 0).val
    rw [e0]; omega
  · show win1_5.index t 1 * 32 + 1 * (j 1).val = (j 1).val
    rw [e1]; omega

/-- An index of the result array is in point t's block iff each coordinate is in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v38).slice (win1_5.rect t)).set ↔ _
  rw [View.set_slice_whole, Rect.mem_set_unit]
  exact Iff.rfl

/-- After the region the result array holds the dense stage of the arrays the region found: row r is written by point
    r / 5000. -/
theorem final (c : Dev nD) : (dat1 V c).arrAt 5 cfg1.N = result V c :=
  (dat1 V c).arrAt_eq_of_cover 5 (result V c) (fun t _ => flushed_eq V c t) fun i => by
    have hi0 : (i 0).val < 100000 := (i 0).isLt
    have hi1 : (i 1).val < 32 := (i 1).isLt
    have hN : cfg1.N = 20 := N_1
    obtain ⟨t, ht⟩ : ∃ t : Fin cfg1.N, t.val = (i 0).val / 5000 := ⟨⟨(i 0).val / 5000, by rw [hN]; omega⟩, rfl⟩
    obtain ⟨e0, e1, -⟩ := idx_facts t
    refine ⟨t, flush1_5 t, ?_⟩
    rw [mem_blk]
    intro a
    match a with
    | ⟨0, _⟩ =>
      show win1_5.index t 0 * 5000 ≤ (i 0).val ∧ (i 0).val < win1_5.index t 0 * 5000 + 5000
      rw [e0, ht]; omega
    | ⟨1, _⟩ =>
      show win1_5.index t 1 * 32 ≤ (i 1).val ∧ (i 1).val < win1_5.index t 1 * 32 + 32
      rw [e1]; omega

end Cert.KernelIdeal.Stage2

end
-- ==== Proof.KernelWhole.lean ====
/-
  The idealized kernel's result as one function of its arguments.

  @main computes, on the host, the neighbour-mean aggregation of the node features — gather the source node's row for
  every edge, add the rows up by destination node, divide by the destination's edge count (at least 1) —, hands it
  with the features to the first dense stage, aggregates the stage's result the same way and hands both to the second
  dense stage. Read back along the run: the last boundary's contents at the result array are the second stage's result
  array (its twenty write-backs put together), whose row operands are the host's aggregation of the first stage's result
  array and that array itself, whose row operands in turn are the host's aggregation of the first argument and the first
  argument. The aggregation is kept as the host spells it, one function of a feature array and the edge list
  (`meanAgg128`, `meanAgg64`): nothing here looks inside a gather or a scatter.
-/
import proofs.«112888_j51496657879701_1_alg».proof.Proof.KernelStage1
import proofs.«112888_j51496657879701_1_alg».proof.Proof.KernelStage2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.ShloMosaic.StableHlo Idealize.SL.Sem
open Cert.SageLayer

/-- The edges' source nodes: row 0 of the edge list. -/
def srcIdx (e : IVec S2x640000 32) : IVec S640000 32 :=
  shapeCast _ (extractStridedSlice S1x640000 ![0, 0] e slices_S2x640000_S1x640000_0_0) shapeCasts_S1x640000_S640000

/-- The edges' destination nodes: row 1 of the edge list. -/
def dstIdx (e : IVec S2x640000 32) : IVec S640000 32 :=
  shapeCast _ (extractStridedSlice S1x640000 ![1, 0] e slices_S2x640000_S1x640000_1_0) shapeCasts_S1x640000_S640000

/-- Every node's edge count as a destination, at least 1, as a column. -/
def cntCol (e : IVec S2x640000 32) : FVec Ideal S100000x1 .f32 :=
  broadcastInDim S100000x1 ![0] bcast_S100000_S100000x1_0
    (maximumf
      (Host.scatterAdd scatter_S100000_S640000x1_S640000_n_0_0_1
        (broadcastInDim S100000 ![] bcast_S_S100000 (constant S_ .f32 0x00000000#32))
        (broadcastInDim S640000x1 ![0] bcast_S640000_S640000x1_0 (dstIdx e))
        (broadcastInDim S640000 ![] bcast_S_S640000 (constant S_ .f32 0x3F800000#32)))
      (broadcastInDim S100000 ![] bcast_S_S100000 (constant S_ .f32 0x3F800000#32)))

/-- The source node numbers with a negative one counted from the end, as a column of start indices. -/
def srcStart (e : IVec S2x640000 32) : IVec S640000x1 32 :=
  broadcastInDim S640000x1 ![0] bcast_S640000_S640000x1_0
    (select (cmpi .slt (srcIdx e) (broadcastInDim S640000 ![] bcast_S_S640000 (constantI S_ 32 0#32)))
      (addi (srcIdx e) (broadcastInDim S640000 ![] bcast_S_S640000 (constantI S_ 32 100000#32)))
      (srcIdx e))

/-- The neighbour mean of 128-wide features, as @main's host operations spell it. -/
def meanAgg128 (x : FVec Ideal S100000x128 .f32) (e : IVec S2x640000 32) : FVec Ideal S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 (dstIdx e))
      (Host.gather gather_S100000x128_S640000x1_S640000x128_1_0_n_n_0_1_1128 x (srcStart e)))
    (broadcastInDim S100000x128 ![0, 1] bcast_S100000x1_S100000x128_0_1 (cntCol e))

/-- The neighbour mean of 64-wide features, as @main's host operations spell it. -/
def meanAgg64 (h : FVec Ideal S100000x64 .f32) (e : IVec S2x640000 32) : FVec Ideal S100000x64 .f32 :=
  Host.divf
    (Host.scatterAdd scatter_S100000x64_S640000x1_S640000x64_1_0_0_1
      (broadcastInDim S100000x64 ![] bcast_S_S100000x64 (constant S_ .f32 0x00000000#32))
      (broadcastInDim S640000x1 ![0] bcast_S640000_S640000x1_0 (dstIdx e))
      (Host.gather gather_S100000x64_S640000x1_S640000x64_1_0_n_n_0_1_164 h (srcStart e)))
    (broadcastInDim S100000x64 ![0, 1] bcast_S100000x1_S100000x64_0_1 (cntCol e))

/-- The hidden features: the rectified first dense stage of the aggregated and the own features. -/
def hidden (x0 : FVec Ideal S100000x128 .f32) (e : IVec S2x640000 32) (x2 : FVec Ideal S64x128 .f32)
    (x3 : FVec Ideal S64 .f32) (x4 : FVec Ideal S64x128 .f32) : FVec Ideal S100000x64 .f32 :=
  reluArr (linArr (meanAgg128 x0 e) x0 x2 x4
    (fun q => (shapeCast S1x64 x3 shapeCasts_S64_S1x64 : S1x64.Idx → EReal) (ix2 (0 : Fin 1) q)))

/-- The kernel's result: the second dense stage of the aggregated hidden features and the hidden features. -/
def out (x0 : FVec Ideal S100000x128 .f32) (e : IVec S2x640000 32) (x2 : FVec Ideal S64x128 .f32)
    (x3 : FVec Ideal S64 .f32) (x4 : FVec Ideal S64x128 .f32) (x5 : FVec Ideal S32x64 .f32) (x6 : FVec Ideal S32 .f32)
    (x7 : FVec Ideal S32x64 .f32) : FVec Ideal S100000x32 .f32 :=
  linArr (meanAgg64 (hidden x0 e x2 x3 x4) e) (hidden x0 e x2 x3 x4) x5 x7
    (fun q => (shapeCast S1x32 x6 shapeCasts_S32_S1x32 : S1x32.Idx → EReal) (ix2 (0 : Fin 1) q))

variable (m : (ℓ : Loc nD τ sig) → Buf (Elt Ideal) ℓ) (ρ : Dev nD → PrngReg)

/-! ## The first region's entry contents -/

theorem V1_v22 (c : Dev nD) : (V1 m ρ c main_v22 : S100000x128.Idx → EReal)
    = meanAgg128 (m ((c.tc : Thread nD τ).loc main_arg0)) (m ((c.tc : Thread nD τ).loc main_arg1)) := by
  show StableHlo.after hostOps0 (W0 m ρ c) (Proc.devRef .tc main_v22) = _
  after_results_simp
  rfl

theorem V1_v23 (c : Dev nD) : (V1 m ρ c main_v23 : S1x64.Idx → EReal)
    = shapeCast S1x64 (m ((c.tc : Thread nD τ).loc main_arg3)) shapeCasts_S64_S1x64 := by
  show StableHlo.after hostOps0 (W0 m ρ c) (Proc.devRef .tc main_v23) = _
  after_results_simp
  rfl

theorem V1_arg0 (c : Dev nD) : (V1 m ρ c main_arg0 : S100000x128.Idx → EReal) = m ((c.tc : Thread nD τ).loc main_arg0) := by
  show StableHlo.after hostOps0 (W0 m ρ c) (Proc.devRef .tc main_arg0) = _
  after_results_simp

theorem V1_arg2 (c : Dev nD) : (V1 m ρ c main_arg2 : S64x128.Idx → EReal) = m ((c.tc : Thread nD τ).loc main_arg2) := by
  show StableHlo.after hostOps0 (W0 m ρ c) (Proc.devRef .tc main_arg2) = _
  after_results_simp

theorem V1_arg4 (c : Dev nD) : (V1 m ρ c main_arg4 : S64x128.Idx → EReal) = m ((c.tc : Thread nD τ).loc main_arg4) := by
  show StableHlo.after hostOps0 (W0 m ρ c) (Proc.devRef .tc main_arg4) = _
  after_results_simp

/-! ## The first region's result, and what the second stretch of host operations finds -/

/-- After the first region its result array holds the hidden features of the arguments. -/
theorem W2_v24 (c : Dev nD) : (W2 m ρ c (Proc.devRef .tc main_v24) : S100000x64.Idx → EReal)
    = hidden (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (W2_arr m ρ c 5).trans ?_
  rw [Cert.KernelIdeal.Stage1.final]
  unfold Cert.KernelIdeal.Stage1.result hidden
  rw [V1_v22, V1_v23, V1_arg0, V1_arg2, V1_arg4]

theorem W2_v1 (c : Dev nD) : (W2 m ρ c (Proc.devRef .tc main_v1) : IVec S640000 32)
    = srcIdx (m ((c.tc : Thread nD τ).loc main_arg1)) := by
  refine (W2_of_ne m ρ c main_v1 (by decide)).trans ?_
  show StableHlo.after hostOps0 (W0 m ρ c) (Proc.devRef .tc main_v1) = _
  after_results_simp
  rfl

theorem W2_v3 (c : Dev nD) : (W2 m ρ c (Proc.devRef .tc main_v3) : IVec S640000 32)
    = dstIdx (m ((c.tc : Thread nD τ).loc main_arg1)) := by
  refine (W2_of_ne m ρ c main_v3 (by decide)).trans ?_
  show StableHlo.after hostOps0 (W0 m ρ c) (Proc.devRef .tc main_v3) = _
  after_results_simp
  rfl

theorem W2_v10 (c : Dev nD) : (W2 m ρ c (Proc.devRef .tc main_v10) : S100000x1.Idx → EReal)
    = cntCol (m ((c.tc : Thread nD τ).loc main_arg1)) := by
  refine (W2_of_ne m ρ c main_v10 (by decide)).trans ?_
  show StableHlo.after hostOps0 (W0 m ρ c) (Proc.devRef .tc main_v10) = _
  after_results_simp
  rfl

theorem W2_arg5 (c : Dev nD) : (W2 m ρ c (Proc.devRef .tc main_arg5) : S32x64.Idx → EReal)
    = m ((c.tc : Thread nD τ).loc main_arg5) := by
  refine (W2_of_ne m ρ c main_arg5 (by decide)).trans ?_
  show StableHlo.after hostOps0 (W0 m ρ c) (Proc.devRef .tc main_arg5) = _
  after_results_simp

theorem W2_arg6 (c : Dev nD) : (W2 m ρ c (Proc.devRef .tc main_arg6) : S32.Idx → EReal)
    = m ((c.tc : Thread nD τ).loc main_arg6) := by
  refine (W2_of_ne m ρ c main_arg6 (by decide)).trans ?_
  show StableHlo.after hostOps0 (W0 m ρ c) (Proc.devRef .tc main_arg6) = _
  after_results_simp

theorem W2_arg7 (c : Dev nD) : (W2 m ρ c (Proc.devRef .tc main_arg7) : S32x64.Idx → EReal)
    = m ((c.tc : Thread nD τ).loc main_arg7) := by
  refine (W2_of_ne m ρ c main_arg7 (by decide)).trans ?_
  show StableHlo.after hostOps0 (W0 m ρ c) (Proc.devRef .tc main_arg7) = _
  after_results_simp

/-! ## The second region's entry contents -/

theorem V3_v36 (c : Dev nD) : (V3 m ρ c main_v36 : S100000x64.Idx → EReal)
    = meanAgg64 (W2 m ρ c (Proc.devRef .tc main_v24)) (m ((c.tc : Thread nD τ).loc main_arg1)) := by
  show StableHlo.after hostOps1 (W2 m ρ c) (Proc.devRef .tc main_v36) = _
  after_results_simp
  rw [W2_v1, W2_v3, W2_v10]
  rfl

theorem V3_v24 (c : Dev nD) : (V3 m ρ c main_v24 : S100000x64.Idx → EReal) = W2 m ρ c (Proc.devRef .tc main_v24) := by
  show StableHlo.after hostOps1 (W2 m ρ c) (Proc.devRef .tc main_v24) = _
  after_results_simp

theorem V3_v37 (c : Dev nD) : (V3 m ρ c main_v37 : S1x32.Idx → EReal)
    = shapeCast S1x32 (m ((c.tc : Thread nD τ).loc main_arg6)) shapeCasts_S32_S1x32 := by
  show StableHlo.after hostOps1 (W2 m ρ c) (Proc.devRef .tc main_v37) = _
  after_results_simp
  rw [W2_arg6]
  rfl

theorem V3_arg5 (c : Dev nD) : (V3 m ρ c main_arg5 : S32x64.Idx → EReal) = m ((c.tc : Thread nD τ).loc main_arg5) := by
  show StableHlo.after hostOps1 (W2 m ρ c) (Proc.devRef .tc main_arg5) = _
  after_results_simp
  exact W2_arg5 m ρ c

theorem V3_arg7 (c : Dev nD) : (V3 m ρ c main_arg7 : S32x64.Idx → EReal) = m ((c.tc : Thread nD τ).loc main_arg7) := by
  show StableHlo.after hostOps1 (W2 m ρ c) (Proc.devRef .tc main_arg7) = _
  after_results_simp
  exact W2_arg7 m ρ c

/-! ## The result -/

/-- At the last boundary the result array holds `out` of the arguments. -/
theorem W4_v38 (c : Dev nD) : (W4 m ρ c (Proc.devRef .tc main_v38) : S100000x32.Idx → EReal)
    = out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ?_
  rw [Cert.KernelIdeal.Stage2.final]
  unfold Cert.KernelIdeal.Stage2.result out
  rw [V3_v36, V3_v24, V3_v37, V3_arg5, V3_arg7, W2_v24]

end Cert.KernelIdeal.Whole

end
-- ==== Proof.ReferenceWhole.lean ====
/-
  The idealized reference's result as two dense stages over the host's aggregations.

  The reference's @main spells each graph layer as: the neighbour mean of the layer's input (a gather, a scatter-add and a
  division, kept here as the stages the generated reading names them), then the general product with the transposed
  neighbour weights, the bias laid out over the rows and added, and the general product of the layer's input with the
  transposed own-feature weights added last; the first layer's result goes through the maximum with zero. Read with the
  dense stage's host spelling, the hidden features are the rectified dense stage of the aggregated and the own features,
  and the result is the dense stage of the aggregated hidden features and the hidden features.
-/
import proofs.«112888_j51496657879701_1_alg».proof.Proof.Gen.ReferenceIdeal.Read
import proofs.«112888_j51496657879701_1_alg».proof.Proof.LibSageLayer

noncomputable section

namespace Cert.ReferenceIdeal.Whole

open Cert.ReferenceIdeal Cert.ReferenceIdeal.Gen Cert.ReferenceIdeal.Read Idealize.ShloMosaic Idealize.ShloMosaic.ValueIdx
open Cert.SageLayer

/-- The hidden features: the rectified dense stage of the aggregated features and the features. -/
theorem hidden_eq (x0 : FVec Ideal S100000x128 .f32) (x1 : IVec S2x640000 32) (x2 : FVec Ideal S64x128 .f32)
    (x3 : FVec Ideal S64 .f32) (x4 : FVec Ideal S64x128 .f32) :
    val_main_v31 (F := Ideal) x0 x1 x2 x3 x4
      = reluArr (linArr (val_main_v22 (F := Ideal) x0 x1) x0 x2 x4 (fun c => x3 (ix1 c))) := by
  unfold val_main_v31 val_main_v30 val_main_v27 val_main_v29 val_main_v24 val_main_v26 val_main_v25 val_main_v23
    val_main_v28 val_main_call0_v0 val_main_call0_cst
  refine (host_relu_eq bcast_S_S100000x64 _).trans (congrArg reluArr ?_)
  exact host_lin_eq dot_S100000x128_S128x64_S100000x64_1_0_0_1_n_n rfl rfl rfl rfl rfl rfl
    transposes_S64x128_S128x64_1_0 bcast_S64_S1x64_1 bcast_S1x64_S100000x64_0_1 (val_main_v22 (F := Ideal) x0 x1) x0 x2 x4 x3

/-- The result: the dense stage of the aggregated hidden features and the hidden features. -/
theorem out_eq (x0 : FVec Ideal S100000x128 .f32) (x1 : IVec S2x640000 32) (x2 : FVec Ideal S64x128 .f32)
    (x3 : FVec Ideal S64 .f32) (x4 : FVec Ideal S64x128 .f32) (x5 : FVec Ideal S32x64 .f32) (x6 : FVec Ideal S32 .f32)
    (x7 : FVec Ideal S32x64 .f32) :
    val_main_v58 (F := Ideal) x0 x1 x2 x3 x4 x5 x6 x7
      = linArr (val_main_v50 (F := Ideal) x0 x1 x2 x3 x4) (val_main_v31 (F := Ideal) x0 x1 x2 x3 x4) x5 x7
          (fun c => x6 (ix1 c)) := by
  unfold val_main_v58 val_main_v55 val_main_v57 val_main_v52 val_main_v54 val_main_v53 val_main_v51 val_main_v56
  exact host_lin_eq dot_S100000x64_S64x32_S100000x32_1_0_0_1_n_n rfl rfl rfl rfl rfl rfl
    transposes_S32x64_S64x32_1_0 bcast_S32_S1x32_1 bcast_S1x32_S100000x32_0_1
    (val_main_v50 (F := Ideal) x0 x1 x2 x3 x4) (val_main_v31 (F := Ideal) x0 x1 x2 x3 x4) x5 x7 x6

end Cert.ReferenceIdeal.Whole

end
-- ==== Proof.Bridge.lean ====
/-
  The two idealized programs compute one function of the arguments.

  Both are: hidden = rectified dense stage of (neighbour mean of the features, the features) with the first layer's
  weights and bias; result = dense stage of (neighbour mean of hidden, hidden) with the second layer's. The neighbour mean
  is spelt by the same host operations in both programs — the kernel's program computes the edge counts once and
  reuses them, the reference computes them once per layer, from the same edge list by the same operations —, so as
  functions of a feature array and the edge list the two spellings are one term, and nothing is opened. The bias reaches
  the kernel's dense stage as a [1, C] row (a reshape of the C numbers) and the reference's as the C numbers: the row's
  entry (0, q) is the q-th number. With the two dense stages read at an entry on both sides there is nothing left: the
  sums run over the same index in the same grouping, so no law of the extended reals is used and the finiteness of the
  inputs is not needed.
-/
import proofs.«112888_j51496657879701_1_alg».proof.Proof.KernelWhole
import proofs.«112888_j51496657879701_1_alg».proof.Proof.ReferenceWhole

noncomputable section

namespace Cert.Bridge

open Idealize.ShloMosaic Idealize.ShloMosaic.ValueIdx
open Cert.SageLayer
open Cert.ReferenceIdeal.Read

variable (x0 : FVec Ideal Cert.KernelIdeal.S100000x128 .f32) (x1 : IVec Cert.KernelIdeal.S2x640000 32)
  (x2 : FVec Ideal Cert.KernelIdeal.S64x128 .f32) (x3 : FVec Ideal Cert.KernelIdeal.S64 .f32)
  (x4 : FVec Ideal Cert.KernelIdeal.S64x128 .f32) (x5 : FVec Ideal Cert.KernelIdeal.S32x64 .f32)
  (x6 : FVec Ideal Cert.KernelIdeal.S32 .f32) (x7 : FVec Ideal Cert.KernelIdeal.S32x64 .f32)

/-- The reference's neighbour mean of the features is the kernel's program's: the same operations of the same arguments. -/
theorem agg128_eq : val_main_v22 (F := Ideal) x0 x1 = Cert.KernelIdeal.Whole.meanAgg128 x0 x1 := rfl

/-- The reference's neighbour mean of its hidden features is the kernel's program's neighbour mean of them. -/
theorem agg64_eq : val_main_v50 (F := Ideal) x0 x1 x2 x3 x4
    = Cert.KernelIdeal.Whole.meanAgg64 (val_main_v31 (F := Ideal) x0 x1 x2 x3 x4) x1 := rfl

/-- A bias as a [1, 64] row read at (0, q) is the q-th number. -/
theorem bias1 (h : Cert.KernelIdeal.S64.ShapeCasts Cert.KernelIdeal.S1x64) :
    (fun q : Fin 64 => (shapeCast Cert.KernelIdeal.S1x64 x3 h : Cert.KernelIdeal.S1x64.Idx → EReal) (ix2 (0 : Fin 1) q))
      = fun c => x3 (ix1 c) :=
  funext fun q => Cert.BiasRow.cast_row_apply h x3 q

/-- A bias as a [1, 32] row read at (0, q) is the q-th number. -/
theorem bias2 (h : Cert.KernelIdeal.S32.ShapeCasts Cert.KernelIdeal.S1x32) :
    (fun q : Fin 32 => (shapeCast Cert.KernelIdeal.S1x32 x6 h : Cert.KernelIdeal.S1x32.Idx → EReal) (ix2 (0 : Fin 1) q))
      = fun c => x6 (ix1 c) :=
  funext fun q => Cert.BiasRow.cast_row_apply h x6 q

/-- The kernel's result and the reference's are one function of the eight arguments. -/
theorem out_agree : Cert.KernelIdeal.Whole.out x0 x1 x2 x3 x4 x5 x6 x7
    = val_main_v58 (F := Ideal) x0 x1 x2 x3 x4 x5 x6 x7 := by
  rw [Cert.ReferenceIdeal.Whole.out_eq, agg64_eq, Cert.ReferenceIdeal.Whole.hidden_eq, agg128_eq]
  unfold Cert.KernelIdeal.Whole.out Cert.KernelIdeal.Whole.hidden
  rw [bias1, bias2]

end Cert.Bridge

end
-- ==== Proof.lean ====
/- The proof of `Cert.Claim`: frame_Kernel ∧ frame_KernelIdeal ∧ frame_ReferenceIdeal ∧ preserves_Kernel_KernelIdeal ∧
   algebraic_KernelIdeal_ReferenceIdeal, for a two-layer neighbour-mean graph network whose dense stage is a pallas_call.

   The kernel's two frames are the generated ones; the reference's is its generated run with the result dropped; the
   ideal pass rewrote nothing, so `preserves` is `True`. For `algebraic`: the idealized kernel's run, re-posted with the
   result array named, ends at one function `out` of the eight arguments (Proof/KernelWhole.lean: the twenty write-backs
   of each dense stage put together, the host's neighbour mean kept as the host spells it); the idealized reference's
   generated run ends at its own term, which is the same function (Proof/Bridge.lean: both dense stages read at an entry
   as  (Σ_k A(r,k)·Wl(c,k) + b(c)) + Σ_k X(r,k)·Wr(c,k) , the two neighbour means one term). The arguments agree, so the
   results are equal. -/
import proofs.«112888_j51496657879701_1_alg».proof.Defs
import proofs.«112888_j51496657879701_1_alg».proof.Proof.Gen.Kernel
import proofs.«112888_j51496657879701_1_alg».proof.Proof.Gen.Kernel.Skeleton
import proofs.«112888_j51496657879701_1_alg».proof.Proof.Gen.Kernel.Launch
import proofs.«112888_j51496657879701_1_alg».proof.Proof.Gen.Kernel.Points
import proofs.«112888_j51496657879701_1_alg».proof.Proof.Gen.Kernel.Frame
import proofs.«112888_j51496657879701_1_alg».proof.Proof.Gen.KernelIdeal
import proofs.«112888_j51496657879701_1_alg».proof.Proof.Gen.KernelIdeal.Skeleton
import proofs.«112888_j51496657879701_1_alg».proof.Proof.Gen.KernelIdeal.Launch
import proofs.«112888_j51496657879701_1_alg».proof.Proof.Gen.KernelIdeal.Points
import proofs.«112888_j51496657879701_1_alg».proof.Proof.Gen.KernelIdeal.Frame
import proofs.«112888_j51496657879701_1_alg».proof.Proof.Gen.ReferenceIdeal
import proofs.«112888_j51496657879701_1_alg».proof.Proof.Gen.ReferenceIdeal.Run
import proofs.«112888_j51496657879701_1_alg».proof.Proof.Gen.ReferenceIdeal.Read
import proofs.«112888_j51496657879701_1_alg».proof.Proof.Gen.Pre_finite_inputs
import proofs.«112888_j51496657879701_1_alg».proof.Proof.KernelRunNamed
import proofs.«112888_j51496657879701_1_alg».proof.Proof.KernelWhole
import proofs.«112888_j51496657879701_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at `out` of the arguments, which agree. -/
theorem algebraic : Cert.algebraic_KernelIdeal_ReferenceIdeal := by
  intro m ρ m' ρ' _ hagree
  refine ⟨fun c => Cert.KernelIdeal.Whole.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel's run, its result array read at the last boundary
    exact (θ_run Cert.KernelIdeal.defs _ _).mono
      (fun _ h c => ⟨(h c).1.trans (Cert.KernelIdeal.Whole.W4_v38 m ρ c), (h c).2⟩)
      (Cert.KernelIdeal.RunNamed.run_named (F := Ideal) m ρ)
  · -- the reference's run, its term the same function of arguments that agree
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]
    exact (Cert.Bridge.out_agree _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
